-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S256x128 .f32) (main_arg2 : FVec F S128 .f32) (main_arg3 : IVec S800000 32) (main_arg4 : IVec S800000 32) (main_arg5 : IVec S50000x128 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S256x128 : Shape := ⟨2, ![256, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S2000x128 : Shape := ⟨2, ![2000, 128]⟩

abbrev nBuf : Space → Nat
  | .hbm => 35
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S50000x128, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .i32⟩
  | .local _ .vmem, ⟨8, _⟩ => ⟨S2000x128, .i32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .i32 = 32 ∨ (Rect.block (s := S50000x128) S2000x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S50000x128, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x256, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SageSpec.lean ====
/-
  The mathematics both programs compute, stated once over literal shapes.

  Inputs: node features X [50000,128], aggregated neighbour features Xn [50000,128] (the mean over incoming edges,
  which both programs compute by the same host operations and which is never opened here), weights W [256,128],
  bias b [128] and an integer mask M [50000,128].  Output entry (r, c):

      max( Σ_{k<128} X[r,k]·W[k,c] + Σ_{k<128} Xn[r,k]·W[128+k,c] + b[c], 0 ) · float(M[r,c]) · 2.

  The kernel forms the two 128-term sums separately (two matrix products against the upper and lower halves of W);
  the reference forms ONE 256-term sum of the concatenated row [X[r,:], Xn[r,:]] against W.  A sum over Fin 256 is
  the sum over its first 128 indices plus the sum over its last 128 (`sum_halves`): a fact of any commutative
  monoid, so it holds on the extended reals with no finiteness assumption.  The reference also groups the final
  product as h · (float(M) · 2) where the kernel has (h · float(M)) · 2: associativity of the product on the
  extended reals.
-/
import Idealize.ShloMosaic.PureOps.Ideal
import Idealize.ShloMosaic.PureOps.Ideal.Laws
import Idealize.ShloMosaic.Lib.ValueIdx
import Mathlib.Algebra.BigOperators.Fin

noncomputable section

namespace Cert.Sage

open Idealize.ShloMosaic Idealize.ShloMosaic.ValueIdx

/-- The float zero the rectifier compares against, and the dropout scale 2, as the words both programs print. -/
abbrev zeroF : EReal := Ideal.ofBits .f32 0x00000000#32
abbrev twoF : EReal := Ideal.ofBits .f32 0x40000000#32

/-- One output entry from its row of X, its row of Xn, the two half-columns of W, the bias entry and the mask word:
    rectify the affine form, then scale by the mask and by 2 (grouped as the kernel does). -/
def entry (a an w1 w2 : Fin 128 → EReal) (b : EReal) (mk : BitVec 32) : EReal :=
  max (((∑ k : Fin 128, a k * w1 k) + (∑ k : Fin 128, an k * w2 k)) + b) zeroF * ((mk.toInt : ℝ) : EReal) * twoF

/-- The whole result as one function of the argument arrays, index by index. -/
def sage (X Xn : (⟨2, ![50000, 128]⟩ : Shape).Idx → EReal) (W : (⟨2, ![256, 128]⟩ : Shape).Idx → EReal)
    (b : (⟨1, ![128]⟩ : Shape).Idx → EReal) (M : (⟨2, ![50000, 128]⟩ : Shape).Idx → BitVec 32) :
    (⟨2, ![50000, 128]⟩ : Shape).Idx → EReal := fun i =>
  entry (fun k => X (ix2 (i 0) k)) (fun k => Xn (ix2 (i 0) k))
    (fun k => W (ix2 (⟨k.val, by omega⟩ : Fin 256) (i 1))) (fun k => W (ix2 (⟨128 + k.val, by omega⟩ : Fin 256) (i 1)))
    (b (ix1 (i 1))) (M i)

/-- A sum over 256 indices is the sum over the first 128 plus the sum over the last 128. -/
theorem sum_halves {M : Type*} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-- The reference's grouping of one entry — one 256-term sum, and the mask scaled by 2 before it meets the
    rectified value — is `entry`. -/
theorem entry_of_concat (row : Fin 256 → EReal) (col : Fin 256 → EReal) (b : EReal) (mk : BitVec 32) :
    max ((∑ k : Fin 256, row k * col k) + b) zeroF * (((mk.toInt : ℝ) : EReal) * twoF)
      = entry (fun k => row ⟨k.val, by omega⟩) (fun k => row ⟨128 + k.val, by omega⟩)
          (fun k => col ⟨k.val, by omega⟩) (fun k => col ⟨128 + k.val, by omega⟩) b mk := by
  unfold entry
  rw [sum_halves (fun k => row k * col k), mul_assoc]

end Cert.Sage

end
-- ==== Proof.RefValue.lean ====
/-
  The reference's result is the specification.

  Reading the reference one operation at a time (the generated read-at-an-index lemmas), entry (r, c) of its result is
      max( Σ_{k<256} H[r,k]·W[k,c] + b[c], 0 ) · ( float(M[r,c]) · 2 )
  where H = [X | Xn] is the concatenation along the feature axis: H[r,k] = X[r,k] for k < 128 and Xn[r,k-128] for
  128 ≤ k.  Splitting the 256-term sum at 128 and reading H on each half turns it into the specification's entry.
-/
import proofs.«147872_j40716289966349_1_alg».proof.Proof.Gen.ReferenceIdeal.Read
import proofs.«147872_j40716289966349_1_alg».proof.Proof.SageSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The concatenated row on its first half is the row of X. -/
theorem concat_left (x0 : (⟨S50000x128, .f32⟩ : BufTy).Contents (Elt Ideal)) (x3 x4 : (⟨S800000, .i32⟩ : BufTy).Contents (Elt Ideal))
    (i : S50000x128.Idx) (k : Fin 128) :
    val_main_v19 (F := Ideal) x0 x3 x4 (lidx_main_v20 i ⟨k.val, by omega⟩) = x0 (ix2 (i 0) k) := by
  unfold val_main_v19
  refine concatenate_pair_apply_left (t := S50000x256) (s₁ := S50000x128) (s₂ := S50000x128) (1 : Fin S50000x256.rank) _ _ _ _ rfl (ix2 (i 0) k) (fun b => ?_)
  match b with
  | ⟨0, _⟩ => rfl
  | ⟨1, _⟩ => rfl

/-- On its second half it is the row of the aggregated neighbour features. -/
theorem concat_right (x0 : (⟨S50000x128, .f32⟩ : BufTy).Contents (Elt Ideal)) (x3 x4 : (⟨S800000, .i32⟩ : BufTy).Contents (Elt Ideal))
    (i : S50000x128.Idx) (k : Fin 128) :
    val_main_v19 (F := Ideal) x0 x3 x4 (lidx_main_v20 i ⟨128 + k.val, by omega⟩) = val_main_v18 (F := Ideal) x0 x3 x4 (ix2 (i 0) k) := by
  unfold val_main_v19
  refine concatenate_pair_apply_right (t := S50000x256) (s₁ := S50000x128) (s₂ := S50000x128) (1 : Fin S50000x256.rank) _ _ _ _ rfl rfl (ix2 (i 0) k) (fun b hb => ?_) ?_
  · match b with
    | ⟨0, _⟩ => rfl
    | ⟨1, _⟩ => exact absurd rfl hb
  · show k.val + 128 = 128 + k.val
    omega

/-- The weight entry the product meets at contraction index k: row k, the output's column. -/
theorem weight_idx (i : S50000x128.Idx) (k : Fin 256) : ridx_main_v20 i k = ix2 k (i 1) :=
  funext fun a => Fin.ext (by match a with | ⟨0, _⟩ => rfl | ⟨1, _⟩ => rfl)

/-- The bias entry added at an output index: the output's column. -/
theorem bias_idx (i : S50000x128.Idx) : idx_main_v21 (idx_main_v22 i) = ix1 (i 1) :=
  funext fun a => Fin.ext (by match a with | ⟨0, _⟩ => rfl)

/-- THE REFERENCE'S RESULT, as a function of the arguments, is the specification of X, the aggregated neighbour
    features (the reference's own stage for them, left closed), W, b and the mask. -/
theorem result_eq (x0 : (⟨S50000x128, .f32⟩ : BufTy).Contents (Elt Ideal)) (x1 : (⟨S256x128, .f32⟩ : BufTy).Contents (Elt Ideal))
    (x2 : (⟨S128, .f32⟩ : BufTy).Contents (Elt Ideal)) (x3 x4 : (⟨S800000, .i32⟩ : BufTy).Contents (Elt Ideal))
    (x5 : (⟨S50000x128, .i32⟩ : BufTy).Contents (Elt Ideal)) :
    val_main_v28 (F := Ideal) x0 x1 x2 x3 x4 x5 = Cert.Sage.sage x0 (val_main_v18 (F := Ideal) x0 x3 x4) x1 x2 x5 := by
  funext i
  rw [val_main_v28_apply, val_main_v24_apply, val_main_v23_apply, val_main_v20_apply, val_main_v22_apply, val_main_v21_apply,
    val_main_call0_v0_apply, val_main_call0_cst_apply, val_main_v27_apply, val_main_v25_apply, val_main_v26_apply, val_main_cst_4_apply]
  simp only [Ideal.mulf_def, Ideal.addf_def, Ideal.maximumf_def, Ideal.ofBits_def]
  refine (Cert.Sage.entry_of_concat (fun k => val_main_v19 (F := Ideal) x0 x3 x4 (lidx_main_v20 i k)) (fun k => x1 (ridx_main_v20 i k)) _ (x5 i)).trans ?_
  unfold Cert.Sage.sage
  simp only [concat_left, concat_right, weight_idx, bias_idx]
  rfl

end Cert.ReferenceIdeal.RefValue

end
-- ==== Proof.KernelEntry.lean ====
/-
  The kernel body's stored value, entry by entry.

  At one grid point the body loads a [2000,128] block of X, the matching block of Xn, the two [128,128] halves of W,
  the bias as a [1,128] row and the matching block of the mask, and stores ONE value.  Entry (p, q) of that value is
      max( Σ_k x[p,k]·w1[k,q] + Σ_k xn[p,k]·w2[k,q] + b[0,q], 0 ) · float(mask[p,q]) · 2,
  the specification's entry of row p of the two feature blocks and column q of the two weight halves.  The changes of
  float format on the way into the matrix unit are the identity on the extended reals, and a matrix product into a zero
  accumulator is the plain sum over the contracted axis.
-/
import proofs.«147872_j40716289966349_1_alg».proof.Proof.Gen.KernelIdeal.Skeleton
import proofs.«147872_j40716289966349_1_alg».proof.Proof.SageSpec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The matrix unit's operand indices: rows × contraction, contraction × columns -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] product into the zero accumulator, at entry (p, q): the sum over k of l[p,k]·r[k,q]. -/
theorem product_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the block, at entry (p, q), is the row's entry q. -/
theorem bias_apply (x4 : Vec Ideal S1x128 .f32) (p : Fin 2000) (q : Fin 128) :
    broadcastTo S2000x128 (shapeCast S1x128 x4 shapeCasts_S1x128_S1x128) broadcasts_S1x128_S2000x128 (ix2 p q) = x4 (ix2 0 q) := by
  rw [shapeCast_self]
  refine broadcastTo_apply _ _ _ (ix2 0 q) (fun a => ?_)
  match a with
  | ⟨0, _⟩ => rfl
  | ⟨1, _⟩ => rfl

/-- THE STORED VALUE at entry (p, q) is the specification's entry of the loaded blocks' row p and column q. -/
theorem stored_apply (x0 x1 : Vec Ideal S2000x128 .f32) (x2 x3 : Vec Ideal S128x128 .f32) (x4 : Vec Ideal S1x128 .f32)
    (x5 : Vec Ideal S2000x128 .i32) (p : Fin 2000) (q : Fin 128) :
    k0_pay1 (F := Ideal) x0 x1 x2 x3 x4 x5 (ix2 p q)
      = Cert.Sage.entry (fun k => x0 (ix2 p k)) (fun k => x1 (ix2 p k)) (fun k => x2 (ix2 k q)) (fun k => x3 (ix2 k q))
          (x4 (ix2 0 q)) (x5 (ix2 p q)) := by
  unfold k0_pay1
  rw [mulf_apply, mulf_apply, maximumf_apply, addf_apply, addf_apply, product_apply, product_apply, bias_apply]
  simp only [shapeCast_self]
  rfl

end Cert.KernelIdeal.Body

end
-- ==== Proof.KernelHost.lean ====
/-
  The arrays the call finds, as functions of the arguments.

  Four of the call's six input arrays are written by host operations before it: the aggregated neighbour features Xn
  (gather the source rows of X, scatter-add them and a count of ones by destination, divide entrywise by the count
  floored at one), the rows 0…127 and 128…255 of W, and b laid out as one [1,128] row.  Each is read off the host
  operations' composed term; Xn's term is kept closed under one name, since both programs compute it alike.
-/
import proofs.«147872_j40716289966349_1_alg».proof.Proof.Gen.KernelIdeal.Value
import Idealize.ShloMosaic.PureOps.Ideal
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.StableHlo

section
variable {F : FTy → Type} [FloatOps F]

/-- The aggregated neighbour features, as the host operations before the call compose them from X, the source
    indices and the destination indices: the sum of the gathered source rows by destination, divided entrywise by the
    number of incoming edges floored at one. -/
def nbrMean (x0 : (⟨S50000x128, .f32⟩ : BufTy).Contents (Elt F)) (x3 x4 : (⟨S800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (x4)) (Host.gather gather_S50000x128_S800000x1_S800000x128_1_0_n_n_0_1_1128 (x0) (broadcastInDim S800000x1 ![0] bcast_S800000_S800000x1_0 (select (cmpi .slt (x3) (broadcastInDim S800000 ![] bcast_S_S800000 (constantI S_ 32 0#32))) (addi (x3) (broadcastInDim S800000 ![] bcast_S_S800000 (constantI S_ 32 50000#32))) (x3))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (x4)) (broadcastInDim S800000 ![] bcast_S_S800000 (constant S_ .f32 0x3F800000#32))) (broadcastInDim S50000 ![] bcast_S_S50000 (constant S_ .f32 0x3F800000#32)))))
end

variable (m : (ℓ : Loc nD τ sig) → Buf (Elt Ideal) ℓ) (ρ : Dev nD → PrngReg)

set_option maxHeartbeats 2000000 in
/-- Window 1's array is the aggregated neighbour features of the launched arguments. -/
theorem nbr_eq (c : Dev nD) :
    (V m c main_v18 : S50000x128.Idx → EReal) = nbrMean (F := Ideal) (m ((c : Thread nD τ).loc main_arg0)) (m ((c : Thread nD τ).loc main_arg3)) (m ((c : Thread nD τ).loc main_arg4)) := by
  dsimp only [Gen.V, Gen.hostOps0]
  after_results_simp <;> rfl

/-- Window 2's array is rows 0…127 of W. -/
theorem upper_eq (c : Dev nD) :
    (V m c main_v19 : S128x128.Idx → EReal) = extractStridedSlice S128x128 ![0, 0] (m ((c : Thread nD τ).loc main_arg1)) slices_S256x128_S128x128_0_0 := by
  dsimp only [Gen.V, Gen.hostOps0]
  after_results <;> rfl

/-- Window 3's array is rows 128…255 of W. -/
theorem lower_eq (c : Dev nD) :
    (V m c main_v20 : S128x128.Idx → EReal) = extractStridedSlice S128x128 ![128, 0] (m ((c : Thread nD τ).loc main_arg1)) slices_S256x128_S128x128_128_0 := by
  dsimp only [Gen.V, Gen.hostOps0]
  after_results <;> rfl

/-- Window 4's array is b laid out as one row. -/
theorem biasrow_eq (c : Dev nD) :
    (V m c main_v21 : S1x128.Idx → EReal) = shapeCast S1x128 (m ((c : Thread nD τ).loc main_arg2)) shapeCasts_S128_S1x128 := by
  dsimp only [Gen.V, Gen.hostOps0]
  after_results <;> rfl

end Cert.KernelIdeal.Whole

end
-- ==== Proof.KernelWhole.lean ====
/-
  The kernel's result array as one function of the arguments.

  The grid has 25 points; point t works on rows 2000·t … 2000·t + 1999.  Its blocks of X, of the aggregated neighbour
  features Xn and of the mask are those rows of the three arrays; the two weight halves and the bias row are the same
  whole arrays at every point.  So what point t writes back is rows 2000·t … of ONE function of the arrays the call
  finds (`whole`): entry (r, c) is the specification's entry of row r of X and Xn, column c of the two weight halves,
  the bias entry c and the mask word (r, c).  Row r lies in the block of point r / 2000, so the 25 blocks cover the
  result, which therefore ends as `whole` of those arrays.

  The arrays the call finds are the arguments X and mask as launched, and four arrays the host operations before the
  call wrote: Xn (gather the source rows, scatter-add them and a count of ones by destination, divide by the count
  floored at one — kept closed here as `nbrMean`), W's rows 0…127 and 128…255, and b as a [1,128] row.  Reading the
  two slices and the reshape at an index turns `whole` into the specification of X, Xn, W, b and the mask.
-/
import proofs.«147872_j40716289966349_1_alg».proof.Proof.Gen.KernelIdeal.Value
import proofs.«147872_j40716289966349_1_alg».proof.Proof.KernelEntry
import proofs.«147872_j40716289966349_1_alg».proof.Proof.KernelHost
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One whole-array function, and each point's block of it -/

theorem hz : (![0, 0] : Fin 2 → Nat) = fun _ => 0 :=
  funext fun a => by match a with | ⟨0, _⟩ => rfl | ⟨1, _⟩ => rfl

/-- The result as a function of the six arrays the call finds: entry (r, c) from row r of the two feature arrays,
    column c of the two weight halves, the bias row's entry c and the mask word (r, c). -/
def whole (A0 A1 : S50000x128.Idx → EReal) (A2 A3 : S128x128.Idx → EReal) (A4 : S1x128.Idx → EReal)
    (A5 : S50000x128.Idx → BitVec 32) : S50000x128.Idx → EReal := fun i =>
  Cert.Sage.entry (fun k => A0 (ix2 (i 0) k)) (fun k => A1 (ix2 (i 0) k)) (fun k => A2 (ix2 k (i 1))) (fun k => A3 (ix2 k (i 1)))
    (A4 (ix2 0 (i 1))) (A5 i)

/-- The printed index maps over the 25 points: the row-tiled windows (X, Xn, mask, result) are at block (t, 0); the
    weight halves and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 2000·t + p of the array. -/
def row (t : Fin cfg0.N) (p : Fin 2000) : Fin 50000 :=
  ⟨2000 * t.val + p.val, by have h : t.val < 25 := lt_of_lt_of_eq t.isLt (show cfg0.N = 25 from N_0); have := p.isLt; omega⟩

/-! Where an entry of each window's block sits in its array (index × block size + the coordinate inside the block). -/

theorem emb_feat (t : Fin cfg0.N) (p : Fin 2000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

theorem emb_nbr (t : Fin cfg0.N) (p : Fin 2000) (k : Fin 128) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

theorem emb_upper (t : Fin cfg0.N) (k q : Fin 128) :
    ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb_lower (t : Fin cfg0.N) (k q : Fin 128) :
    ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb_bias (t : Fin cfg0.N) (q : Fin 128) :
    ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem emb_mask (t : Fin cfg0.N) (p : Fin 2000) (q : Fin 128) :
    ((cfg0.win 5).blk t).view.emb (ix2 p q) = ix2 (row t p) q := by
  obtain ⟨-, -, -, -, -, -, -, -, -, -, e0, e1, -⟩ := idx_facts t
  funext a; apply Fin.ext
  match a with
  | ⟨0, _⟩ => show win0_5.index t (0 : Fin 2) * 2000 + 1 * p.val = 2000 * t.val + p.val; omega
  | ⟨1, _⟩ => show win0_5.index t (1 : Fin 2) * 128 + 1 * q.val = q.val; omega

theorem emb_out (t : Fin cfg0.N) (p : Fin 2000) (q : Fin 128) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 2000 + 1 * p.val = 2000 * t.val + p.val; omega
  | ⟨1, _⟩ => show win0_6.index t (1 : Fin 2) * 128 + 1 * q.val = q.val; omega

/-! A window's block at point t of ANY contents A of its array, read at an entry, is A read where the entry sits. -/

theorem feat_read (c : Dev nD) (A0 : Buf (Elt Ideal) ((c : Thread nD τ).loc (Pipeline.arrRef spec0 0))) (t : Fin cfg0.N) (p : Fin 2000) (k : Fin 128) :
    ((cfg0.win 0).blk t).view.read (Elt Ideal) A0 (ix2 p k) = (A0 : S50000x128.Idx → EReal) (ix2 (row t p) k) := by
  rw [View.read_apply, emb_feat]
  simp only [cast_eq]

theorem nbr_read (c : Dev nD) (A1 : Buf (Elt Ideal) ((c : Thread nD τ).loc (Pipeline.arrRef spec0 1))) (t : Fin cfg0.N) (p : Fin 2000) (k : Fin 128) :
    ((cfg0.win 1).blk t).view.read (Elt Ideal) A1 (ix2 p k) = (A1 : S50000x128.Idx → EReal) (ix2 (row t p) k) := by
  rw [View.read_apply, emb_nbr]
  simp only [cast_eq]

theorem upper_read (c : Dev nD) (A2 : Buf (Elt Ideal) ((c : Thread nD τ).loc (Pipeline.arrRef spec0 2))) (t : Fin cfg0.N) (k q : Fin 128) :
    ((cfg0.win 2).blk t).view.read (Elt Ideal) A2 (ix2 k q) = (A2 : S128x128.Idx → EReal) (ix2 k q) := by
  rw [View.read_apply, emb_upper]
  simp only [cast_eq]

theorem lower_read (c : Dev nD) (A3 : Buf (Elt Ideal) ((c : Thread nD τ).loc (Pipeline.arrRef spec0 3))) (t : Fin cfg0.N) (k q : Fin 128) :
    ((cfg0.win 3).blk t).view.read (Elt Ideal) A3 (ix2 k q) = (A3 : S128x128.Idx → EReal) (ix2 k q) := by
  rw [View.read_apply, emb_lower]
  simp only [cast_eq]

theorem bias_read (c : Dev nD) (A4 : Buf (Elt Ideal) ((c : Thread nD τ).loc (Pipeline.arrRef spec0 4))) (t : Fin cfg0.N) (q : Fin 128) :
    ((cfg0.win 4).blk t).view.read (Elt Ideal) A4 (ix2 (0 : Fin 1) q) = (A4 : S1x128.Idx → EReal) (ix2 (0 : Fin 1) q) := by
  rw [View.read_apply, emb_bias]
  simp only [cast_eq]

theorem mask_read (c : Dev nD) (A5 : Buf (Elt Ideal) ((c : Thread nD τ).loc (Pipeline.arrRef spec0 5))) (t : Fin cfg0.N) (p : Fin 2000) (q : Fin 128) :
    ((cfg0.win 5).blk t).view.read (Elt Ideal) A5 (ix2 p q) = (A5 : S50000x128.Idx → BitVec 32) (ix2 (row t p) q) := by
  rw [View.read_apply, emb_mask]
  simp only [cast_eq]

/-- `whole` at row r, column q. -/
theorem whole_apply (A0 A1 : S50000x128.Idx → EReal) (A2 A3 : S128x128.Idx → EReal) (A4 : S1x128.Idx → EReal)
    (A5 : S50000x128.Idx → BitVec 32) (r : Fin 50000) (q : Fin 128) :
    whole A0 A1 A2 A3 A4 A5 (ix2 r q)
      = Cert.Sage.entry (fun k => A0 (ix2 r k)) (fun k => A1 (ix2 r k)) (fun k => A2 (ix2 k q)) (fun k => A3 (ix2 k q))
          (A4 (ix2 (0 : Fin 1) q)) (A5 (ix2 r q)) := rfl

/-- ONE POINT'S BLOCK, for any contents of the six staged arrays: the body's stored value of the six blocks read off
    the arrays at point t is block t of `whole` of the arrays. -/
theorem block_eq (c : Dev nD) (t : Fin cfg0.N) (A0 : Buf (Elt Ideal) ((c : Thread nD τ).loc (Pipeline.arrRef spec0 0))) (A1 : Buf (Elt Ideal) ((c : Thread nD τ).loc (Pipeline.arrRef spec0 1))) (A2 : Buf (Elt Ideal) ((c : Thread nD τ).loc (Pipeline.arrRef spec0 2)))
    (A3 : Buf (Elt Ideal) ((c : Thread nD τ).loc (Pipeline.arrRef spec0 3))) (A4 : Buf (Elt Ideal) ((c : Thread nD τ).loc (Pipeline.arrRef spec0 4))) (A5 : Buf (Elt Ideal) ((c : Thread nD τ).loc (Pipeline.arrRef spec0 5))) :
    (cfg0.win 6).cut (grid0.coords t) (out0_6 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5))
      = ((cfg0.win 6).blk t).view.read (Elt Ideal) (whole A0 A1 A2 A3 A4 A5) := by
  unfold out0_6
  rw [View.canon_unit_zero hz]
  simp only [View.ld_unit_zero (S := S2000x128) hz, View.ld_unit_zero (S := S128x128) hz, View.ld_unit_zero (S := S1x128) hz]
  funext j
  show k0_pay1 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) j
    = whole A0 A1 A2 A3 A4 A5 (((cfg0.win 6).blk t).view.emb j)
  obtain ⟨p, q, rfl⟩ : ∃ (p : Fin 2000) (q : Fin 128), j = ix2 p q := ⟨j 0, j 1, eq_ix2 j⟩
  rw [emb_out, whole_apply]
  refine (Cert.KernelIdeal.Body.stored_apply (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) p q).trans ?_
  exact congr (congr (congr (congr (congr (congrArg Cert.Sage.entry (funext fun k => feat_read c A0 t p k))
    (funext fun k => nbr_read c A1 t p k)) (funext fun k => upper_read c A2 t k q)) (funext fun k => lower_read c A3 t k q))
    (bias_read c A4 t q)) (mask_read c A5 t p q)

/-- WHAT POINT t WRITES BACK is block t of `whole` of the arrays the call finds. -/
theorem flushed_eq (c : Dev nD) (t : Fin cfg0.N) :
    (dats m 0 c).flushed 6 t = ((cfg0.win 6).blk t).view.read (Elt Ideal)
      (whole (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))) := by
  refine (flushed6 m c t).trans ?_
  unfold iblk
  exact block_eq c t (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5))

/-- An index of the result is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- Row r is in the block of point r / 2000: the 25 blocks cover the result. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, -, -, e60, e61⟩ := idx_facts ⟨(i 0).val / 2000, hlt⟩
  refine ⟨⟨(i 0).val / 2000, hlt⟩, flush0_6 _, ?_⟩
  rw [mem_blk]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    omega

/-- So the result array ends as `whole` of the arrays the call finds. -/
theorem final (c : Dev nD) : (dats m 0 c).arrAt 6 cfg0.N
    = whole (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) :=
  (dats m 0 c).arrAt_eq_of_cover 6 _ (fun t _ => flushed_eq m c t) covered

/-! ## In terms of the arguments -/

/-- Rows 0…127 of W at (k, c) is W at (k, c). -/
theorem upper_apply (W : S256x128.Idx → EReal) (k q : Fin 128) :
    extractStridedSlice S128x128 ![0, 0] W slices_S256x128_S128x128_0_0 (ix2 k q) = W (ix2 (⟨k.val, by omega⟩ : Fin 256) q) :=
  extractStridedSlice_apply _ _ _ _ _ fun a => by
    match a with
    | ⟨0, _⟩ => show k.val = 0 + k.val; omega
    | ⟨1, _⟩ => show q.val = 0 + q.val; omega

/-- Rows 128…255 of W at (k, c) is W at (128 + k, c). -/
theorem lower_apply (W : S256x128.Idx → EReal) (k q : Fin 128) :
    extractStridedSlice S128x128 ![128, 0] W slices_S256x128_S128x128_128_0 (ix2 k q) = W (ix2 (⟨128 + k.val, by omega⟩ : Fin 256) q) :=
  extractStridedSlice_apply _ _ _ _ _ fun a => by
    match a with
    | ⟨0, _⟩ => show 128 + k.val = 128 + k.val; rfl
    | ⟨1, _⟩ => show q.val = 0 + q.val; omega

/-- The bias row at (0, c) is b at c. -/
theorem biasrow_apply (b : S128.Idx → EReal) (q : Fin 128) :
    shapeCast S1x128 b shapeCasts_S128_S1x128 (ix2 0 q) = b (ix1 q) := by
  refine (shapeCast_addUnit_apply ![128] b shapeCasts_S128_S1x128 (ix2 0 q)).trans (congrArg b (funext fun a => ?_))
  match a with
  | ⟨0, _⟩ => rfl

/-- `whole` of X, Xn, the two halves of W, b as a row and the mask is the specification of X, Xn, W, b and the mask. -/
theorem whole_of_args (X Xn : S50000x128.Idx → EReal) (W : S256x128.Idx → EReal) (b : S128.Idx → EReal) (M : S50000x128.Idx → BitVec 32) :
    whole X Xn (extractStridedSlice S128x128 ![0, 0] W slices_S256x128_S128x128_0_0)
      (extractStridedSlice S128x128 ![128, 0] W slices_S256x128_S128x128_128_0) (shapeCast S1x128 b shapeCasts_S128_S1x128) M
      = Cert.Sage.sage X Xn W b M := by
  funext i
  show Cert.Sage.entry _ _ _ _ _ _ = Cert.Sage.entry _ _ _ _ _ _
  exact congr (congr (congr (congrArg (Cert.Sage.entry _ _) (funext fun k => upper_apply W k (i 1))) (funext fun k => lower_apply W k (i 1)))
    (biasrow_apply b (i 1))) rfl

/-- `whole` respects equality of its six arrays. -/
theorem whole_congr {A0 B0 A1 B1 : S50000x128.Idx → EReal} {A2 B2 A3 B3 : S128x128.Idx → EReal} {A4 B4 : S1x128.Idx → EReal}
    {A5 B5 : S50000x128.Idx → BitVec 32} (h0 : A0 = B0) (h1 : A1 = B1) (h2 : A2 = B2) (h3 : A3 = B3) (h4 : A4 = B4) (h5 : A5 = B5) :
    whole A0 A1 A2 A3 A4 A5 = whole B0 B1 B2 B3 B4 B5 := by
  subst h0 h1 h2 h3 h4 h5; rfl

/-! The six arrays the call finds, as functions of the launched arguments (the generated frame's facts for the two
    arguments staged as launched, and the host operations' terms for the other four). -/

theorem arr0 (c : Dev nD) : ((V m c (Pipeline.arrRef spec0 0)) : S50000x128.Idx → EReal) = (m ((c : Thread nD τ).loc main_arg0)) := V_main_arg0 m c
theorem arr1 (c : Dev nD) : ((V m c (Pipeline.arrRef spec0 1)) : S50000x128.Idx → EReal)
    = nbrMean (F := Ideal) (m ((c : Thread nD τ).loc main_arg0)) (m ((c : Thread nD τ).loc main_arg3)) (m ((c : Thread nD τ).loc main_arg4)) := nbr_eq m c
theorem arr2 (c : Dev nD) : ((V m c (Pipeline.arrRef spec0 2)) : S128x128.Idx → EReal)
    = extractStridedSlice S128x128 ![0, 0] (m ((c : Thread nD τ).loc main_arg1)) slices_S256x128_S128x128_0_0 := upper_eq m c
theorem arr3 (c : Dev nD) : ((V m c (Pipeline.arrRef spec0 3)) : S128x128.Idx → EReal)
    = extractStridedSlice S128x128 ![128, 0] (m ((c : Thread nD τ).loc main_arg1)) slices_S256x128_S128x128_128_0 := lower_eq m c
theorem arr4 (c : Dev nD) : ((V m c (Pipeline.arrRef spec0 4)) : S1x128.Idx → EReal)
    = shapeCast S1x128 (m ((c : Thread nD τ).loc main_arg2)) shapeCasts_S128_S1x128 := biasrow_eq m c
theorem arr5 (c : Dev nD) : ((V m c (Pipeline.arrRef spec0 5)) : S50000x128.Idx → BitVec 32) = (m ((c : Thread nD τ).loc main_arg5)) := V_main_arg5 m c

/-- THE RESULT ARRAY after the run is the specification of the launched X, the aggregated neighbour features, W, b
    and the mask. -/
theorem result_eq (c : Dev nD) : (dats m 0 c).arrAt 6 cfg0.N
    = Cert.Sage.sage (m ((c : Thread nD τ).loc main_arg0)) (nbrMean (F := Ideal) (m ((c : Thread nD τ).loc main_arg0)) (m ((c : Thread nD τ).loc main_arg3)) (m ((c : Thread nD τ).loc main_arg4)))
        (m ((c : Thread nD τ).loc main_arg1)) (m ((c : Thread nD τ).loc main_arg2)) (m ((c : Thread nD τ).loc main_arg5)) :=
  (final m c).trans ((whole_congr (arr0 m c) (arr1 m c) (arr2 m c) (arr3 m c) (arr4 m c) (arr5 m c)).trans
    (whole_of_args _ _ _ _ _))

/-- The run, read: the result at the specification, the arguments unchanged. -/
theorem run : θ_run defs (onTc (τ := τ) (main (F := Ideal))) ⟨m, fun _ => 0, ρ⟩ fun r => ∀ c : Dev nD,
      r.2.mem ((c : Thread nD τ).loc main_v22) = Cert.Sage.sage (m ((c : Thread nD τ).loc main_arg0)) (nbrMean (F := Ideal) (m ((c : Thread nD τ).loc main_arg0)) (m ((c : Thread nD τ).loc main_arg3)) (m ((c : Thread nD τ).loc main_arg4)))
        (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_eq m c), (h c).2⟩) (run_blocks m ρ)

end Cert.KernelIdeal.Whole

end
-- ==== Proof.lean ====
/-
  Equivalence, over the extended reals, of a row-tiled GraphSAGE layer kernel with its reference.

  Both programs first aggregate neighbour features on the host by the SAME operations (gather the source rows of X,
  scatter-add them and a count by destination, divide by the count floored at one); that array, Xn, is never opened.
  The kernel then computes, 2000 rows at a time,
      max( X·W[0:128] + Xn·W[128:256] + b, 0 ) · float(mask) · 2,
  and the reference, on whole arrays,
      max( [X | Xn]·W + b, 0 ) · ( float(mask) · 2 ).
  Entry by entry these agree: a 256-term sum of the concatenated row against a column of W is the sum of its two
  128-term halves (true in any commutative monoid, so no finiteness of the inputs is used), and the two groupings of
  the final product agree by associativity.  Changes of float format are the identity on the extended reals.

  The three frames are the generated ones (the reference's is its generated run with the result dropped); the
  idealization rewrote nothing, so `preserves` is trivial; `algebraic` sets the kernel's result array, read block by
  block into one function of the arguments, beside the reference's run read one operation at a time.
-/
import proofs.«147872_j40716289966349_1_alg».proof.Defs
import proofs.«147872_j40716289966349_1_alg».proof.Proof.Gen.Kernel
import proofs.«147872_j40716289966349_1_alg».proof.Proof.Gen.Kernel.Skeleton
import proofs.«147872_j40716289966349_1_alg».proof.Proof.Gen.Kernel.Launch
import proofs.«147872_j40716289966349_1_alg».proof.Proof.Gen.Kernel.Points
import proofs.«147872_j40716289966349_1_alg».proof.Proof.Gen.Kernel.Frame
import proofs.«147872_j40716289966349_1_alg».proof.Proof.Gen.KernelIdeal
import proofs.«147872_j40716289966349_1_alg».proof.Proof.Gen.KernelIdeal.Skeleton
import proofs.«147872_j40716289966349_1_alg».proof.Proof.Gen.KernelIdeal.Launch
import proofs.«147872_j40716289966349_1_alg».proof.Proof.Gen.KernelIdeal.Points
import proofs.«147872_j40716289966349_1_alg».proof.Proof.Gen.KernelIdeal.Frame
import proofs.«147872_j40716289966349_1_alg».proof.Proof.Gen.ReferenceIdeal
import proofs.«147872_j40716289966349_1_alg».proof.Proof.Gen.Pre_finite_inputs
import proofs.«147872_j40716289966349_1_alg».proof.Proof.Gen.KernelIdeal.Value
import proofs.«147872_j40716289966349_1_alg».proof.Proof.Gen.ReferenceIdeal.Run
import proofs.«147872_j40716289966349_1_alg».proof.Proof.Gen.ReferenceIdeal.Read
import proofs.«147872_j40716289966349_1_alg».proof.Proof.SageSpec
import proofs.«147872_j40716289966349_1_alg».proof.Proof.RefValue
import proofs.«147872_j40716289966349_1_alg».proof.Proof.KernelEntry
import proofs.«147872_j40716289966349_1_alg».proof.Proof.KernelWhole
import Idealize.ShloMosaic.Adequacy
import Idealize.ShloMosaic.Init

noncomputable section

namespace Cert.Proof

open Idealize.ShloMosaic Idealize.ShloMosaic.TcCoe Idealize.SL.Sem

/-- The aggregated neighbour features are one function of X and the two index arrays in both programs: the kernel's
    host operations before the call and the reference's stages compose the same operations in the same order. -/
theorem nbr_agree (x0 : (⟨Cert.KernelIdeal.S50000x128, .f32⟩ : BufTy).Contents (Elt Ideal))
    (x3 x4 : (⟨Cert.KernelIdeal.S800000, .i32⟩ : BufTy).Contents (Elt Ideal)) :
    Cert.KernelIdeal.Whole.nbrMean (F := Ideal) x0 x3 x4 = Cert.ReferenceIdeal.Read.val_main_v18 (F := Ideal) x0 x3 x4 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at the specification of X, the
    aggregated neighbour features, W, b and the mask. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2.1, (hagree c).2.2.2.2.2, nbr_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
